-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x24x4096 : Shape := ⟨3, ![256, 24, 4096]⟩
abbrev S1 : Shape := ⟨1, ![1]⟩
abbrev S_ : Shape := ⟨0, ![]⟩

class Facts : Prop where
  bcast_S_S256x24x4096 : S_.BroadcastsInDim S256x24x4096 (![] : Fin 0 → Fin S256x24x4096.rank)
  reducesTo_S256x24x4096_S_d0_1_2 : S256x24x4096.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S256x24x4096 .f32) (main_arg1 : FVec F S256x24x4096 .f32) (main_arg2 : FVec F S1 .f32) : IVec S_ 1 :=
  let main_v0 : FVec F S256x24x4096 .f32 := Host.absf main_arg0
  let main_cst : FVec F S_ .f32 := constant S_ .f32 0x7F800000#32
  let main_v1 : FVec F S256x24x4096 .f32 := broadcastInDim S256x24x4096 ![] bcast_S_S256x24x4096 main_cst
  let main_v2 : IVec S256x24x4096 1 := cmpf .olt main_v0 main_v1
  let main_c : IVec S_ 1 := constantI S_ 1 1#1
  let main_v3 : IVec S_ 1 := (fun x v => Host.reduce IntOp.andi x v reducesTo_S256x24x4096_S_d0_1_2 h_S_) main_v2 main_c
  let main_v4 : FVec F S256x24x4096 .f32 := Host.absf main_arg1
  let main_cst_0 : FVec F S_ .f32 := constant S_ .f32 0x7F800000#32
  let main_v5 : FVec F S256x24x4096 .f32 := broadcastInDim S256x24x4096 ![] bcast_S_S256x24x4096 main_cst_0
  let main_v6 : IVec S256x24x4096 1 := cmpf .olt main_v4 main_v5
  let main_c_1 : IVec S_ 1 := constantI S_ 1 1#1
  let main_v7 : IVec S_ 1 := (fun x v => Host.reduce IntOp.andi x v reducesTo_S256x24x4096_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S256x24x4096 : Shape := ⟨3, ![256, 24, 4096]⟩
abbrev S1 : Shape := ⟨1, ![1]⟩
abbrev S256x1 : Shape := ⟨2, ![256, 1]⟩
abbrev S128x24x512 : Shape := ⟨3, ![128, 24, 512]⟩
abbrev S128x1 : Shape := ⟨2, ![128, 1]⟩
abbrev S128 : Shape := ⟨1, ![128]⟩
abbrev S256 : Shape := ⟨1, ![256]⟩
abbrev S_ : Shape := ⟨0, ![]⟩

abbrev nBuf : Space → Nat
  | .hbm => 36
  | .vmem => 7
  | .smem => 0
  | _ => 0

abbrev bufTy : (tb : Table) → Fin (tcTables nBuf tb) → BufTy
  | .hbm, ⟨0, _⟩ => ⟨S256x24x4096, .f32⟩
  | .hbm, ⟨1, _⟩ => ⟨S256x24x4096, .f32⟩
  | .hbm, ⟨2, _⟩ => ⟨S1, .f32⟩
  | .hbm, ⟨3, _⟩ => ⟨S256x1, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S128x24x512, .f32⟩
  | .local _ .vmem, ⟨1, _⟩ => ⟨S128x24x512, .f32⟩
  | .local _ .vmem, ⟨2, _⟩ => ⟨S128x24x512, .f32⟩
  | .local _ .vmem, ⟨3, _⟩ => ⟨S128x24x512, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | _, _ => ⟨S256x24x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x24x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x24x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x24x512_S128x24x512_0_0_0 : ∀ a, (![0, 0, 0] : Fin 3 → Nat) a + S128x24x512.size a ≤ S128x24x512.size a
  h_S128x24x512 : 0 < S128x24x512.numel
  natLt_1_32 : 1 < 32
  reduces_S128x24x512_S128 : S128x24x512.Reduces [1, 2] S128
  shapeCasts_S128_S128x1 : S128.ShapeCasts S128x1
  shapeCasts_S256x1_S256 : S256x1.ShapeCasts S256
  shapeCasts_S1_S_ : S1.ShapeCasts S_
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x24x512.size a ≤ S256x24x4096.size a
  hwx0_0 : ∀ i : grid0.Coords, EltTy.bits .f32 = 32 ∨ (Rect.block (s := S256x24x4096) S128x24x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x24x512.size a ≤ S256x24x4096.size a
  hwx0_1 : ∀ i : grid0.Coords, EltTy.bits .f32 = 32 ∨ (Rect.block (s := S256x24x4096) S128x24x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .f32 = 32 ∨ (Rect.block (s := S256x1) S128x1.size (cc0_transform_2 i) (hinb0_2 i)).WholeWords (EltTy.packing .f32)

variable [Facts₀]

abbrev win0_0 : Pipeline.Window sig grid0 :=
  Pipeline.Window.ofSpec (Memref.whole main_arg0) S128x24x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x24x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x24x4096 : Shape := ⟨3, ![256, 24, 4096]⟩
abbrev S1 : Shape := ⟨1, ![1]⟩
abbrev S_ : Shape := ⟨0, ![]⟩
abbrev S256x98304 : Shape := ⟨2, ![256, 98304]⟩
abbrev S256 : Shape := ⟨1, ![256]⟩

abbrev nBuf : Space → Nat
  | .hbm => 43
  | .vmem => 0
  | .smem => 0
  | _ => 0

abbrev bufTy : (tb : Table) → Fin (tcTables nBuf tb) → BufTy
  | .hbm, ⟨0, _⟩ => ⟨S256x24x4096, .f32⟩
  | .hbm, ⟨1, _⟩ => ⟨S256x24x4096, .f32⟩
  | .hbm, ⟨2, _⟩ => ⟨S1, .f32⟩
  | .hbm, ⟨3, _⟩ => ⟨S_, .f32⟩
  | .hbm, ⟨4, _⟩ => ⟨S256x24x4096, .f32⟩
  | .hbm, ⟨5, _⟩ => ⟨S256x24x4096, .i1⟩
  | .hbm, ⟨6, _⟩ => ⟨S256x24x4096, .f32⟩
  | .hbm, ⟨7, _⟩ => ⟨S256x24x4096, .f32⟩
  | .hbm, ⟨8, _⟩ => ⟨S256x98304, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256x98304, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S256x24x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  bcast_S_S256x24x4096 : S_.BroadcastsInDim S256x24x4096 (![] : Fin 0 → Fin S256x24x4096.rank)
  shapeCasts_S256x24x4096_S256x98304 : S256x24x4096.ShapeCasts S256x98304
  shapeCasts_S1_S_ : S1.ShapeCasts S_
  reducesTo_S256x98304_S256_d1 : S256x98304.ReducesTo [1] S256
  h_S_ : 0 < S_.numel
  bcast_S_S256 : S_.BroadcastsInDim S256 (![] : Fin 0 → Fin S256.rank)
  reducesTo_S256_S_d0 : S256.ReducesTo [0] S_

variable [Facts₀]

class Facts : Prop extends Facts₀ where

variable [Facts]
-- ==== Proof.Sums.lean ====
/-
  Finite sums re-indexed: the three facts about sums that the masked sum of squares needs, over any commutative
  monoid. (1) A sum over `Fin (a * b)` is the double sum over quotient and remainder. (2) For a [24, 4096] family,
  summing eight column tiles of width 512 one after the other, each over its 24 rows, is the sum over the flat index
  `k < 98304` read at row `k / 4096`, lane `k % 4096`: both are the sum over all (row, lane) pairs. (3) In a
  [128, 24, 512] block the indices whose first coordinate is `r` are exactly the (q, n) pairs placed behind `r`,
  so a sum over them is a double sum.
-/
import Idealize.ShloMosaic.Lib.ValueIdx
import Idealize.ShloMosaic.PureOps.Ideal.Laws
import Mathlib.Algebra.BigOperators.Fin

noncomputable section

open scoped BigOperators

namespace Cert.MaskedSumsq

open Idealize.ShloMosaic Idealize.ShloMosaic.ValueIdx

/-- A sum over `Fin (a * b)` is the double sum over the quotient `j` and the remainder `n` by `b`
    (the index `n + b * j`). -/
theorem sum_fin_mul {M : Type*} [AddCommMonoid M] (a b : ℕ) (h : Fin (a * b) → M) :
    ∑ k : Fin (a * b), h k = ∑ j : Fin a, ∑ n : Fin b, h (finProdFinEquiv (j, n)) := by
  rw [← Equiv.sum_comp finProdFinEquiv h, Fintype.sum_prod_type]

/-- Eight column tiles of width 512, each summed over its 24 rows, against the flat sum over `k < 24 * 4096` read at
    (k / 4096, k % 4096): both sum `g` over every (row, lane) pair once. -/
theorem sum_tiles {M : Type*} [AddCommMonoid M] (g : Fin 24 → Fin 4096 → M)
    (col : Fin 8 → Fin 512 → Fin 4096) (hcol : ∀ j n, (col j n).val = 512 * j.val + n.val)
    (row : Fin 98304 → Fin 24) (hrow : ∀ k, (row k).val = k.val / 4096)
    (lane : Fin 98304 → Fin 4096) (hlane : ∀ k, (lane k).val = k.val % 4096) :
    ∑ j : Fin 8, ∑ q : Fin 24, ∑ n : Fin 512, g q (col j n) = ∑ k : Fin 98304, g (row k) (lane k) := by
  have hR : ∑ k : Fin 98304, g (row k) (lane k) = ∑ q : Fin 24, ∑ n : Fin 4096, g q n := by
    refine (sum_fin_mul 24 4096 fun k => g (row k) (lane k)).trans ?_
    refine Finset.sum_congr rfl fun q _ => Finset.sum_congr rfl fun n _ => ?_
    have e1 : row (finProdFinEquiv (q, n)) = q :=
      Fin.ext (by rw [hrow]; show (n.val + 4096 * q.val) / 4096 = q.val; omega)
    have e2 : lane (finProdFinEquiv (q, n)) = n :=
      Fin.ext (by rw [hlane]; show (n.val + 4096 * q.val) % 4096 = n.val; omega)
    rw [e1, e2]
  have hL : ∀ q : Fin 24, ∑ j : Fin 8, ∑ n : Fin 512, g q (col j n) = ∑ n : Fin 4096, g q n := by
    intro q
    refine ((sum_fin_mul 8 512 fun n => g q n).trans ?_).symm
    refine Finset.sum_congr rfl fun j _ => Finset.sum_congr rfl fun n _ => ?_
    exact congrArg (g q) (Fin.ext (by rw [hcol]; show n.val + 512 * j.val = _; omega))
  rw [hR, Finset.sum_comm]
  exact Finset.sum_congr rfl fun q _ => hL q

/-- One [128, 24, 512] tile, and its 128 rows. -/
abbrev Tile : Shape := ⟨3, ![128, 24, 512]⟩
abbrev TileRows : Shape := ⟨1, ![128]⟩

/-- Dropping the two trailing coordinates of (r, q, n) leaves r. -/
theorem drop_ix3 (h : Tile.Reduces [1, 2] TileRows) (r : Fin 128) (q : Fin 24) (n : Fin 512) :
    h.drop (ix3 r q n) = ix1 r := by
  funext b
  match b with
  | ⟨0, _⟩ => rfl

/-- The pair (q, n) placed behind the row `r`, as an embedding into the tile's indices. -/
def behind (r : Fin 128) : Fin 24 × Fin 512 ↪ Tile.Idx :=
  ⟨fun p => ix3 r p.1 p.2, fun p p' e => Prod.ext (congrFun e 1) (congrFun e 2)⟩

/-- The reduction over the two trailing axes of a tile, at row `r`, is the double sum over those axes. -/
theorem reduceAdd_rows (h : Tile.Reduces [1, 2] TileRows) (x : Tile.Idx → EReal) (r : Fin 128) :
    Ideal.reduceAdd h x (ix1 r) = ∑ q : Fin 24, ∑ n : Fin 512, x (ix3 r q n) := by
  unfold Ideal.reduceAdd
  have e : Finset.univ.filter (fun i : Tile.Idx => h.drop i = ix1 r) = Finset.univ.map (behind r) := by
    ext i
    simp only [Finset.mem_filter, Finset.mem_univ, true_and, Finset.mem_map, behind, Function.Embedding.coeFn_mk]
    constructor
    · intro hi
      refine ⟨(i 1, i 2), ?_⟩
      have h0 : i 0 = r := Fin.ext (congrArg Fin.val (congrFun hi 0))
      rw [← h0]
      exact (eq_ix3 i).symm
    · rintro ⟨p, rfl⟩
      exact drop_ix3 h r p.1 p.2
  rw [e, Finset.sum_map, Fintype.sum_prod_type]
  rfl

end Cert.MaskedSumsq

end
-- ==== Proof.Spec.lean ====
/-
  What both programs compute, as mathematics over the extended reals.

  Per element the masked square: `msq e y = (e · [y ≠ 0])²`, the indicator `[y ≠ 0]` being 0 or 1. The kernel makes the
  indicator by an ordered comparison, a zero extension to 32 bits and a signed conversion; the reference by an unordered
  comparison and an unsigned conversion of the one-bit word. The extended reals have no unordered pair, so the two
  comparisons are one; and a one-bit word zero-extended is non-negative, so the signed and the unsigned readings agree.

  After the per-row sums `ss : [256]` both programs run the SAME scalar epilogue on `ss` and `σ`:
  with `s = softplus σ` (spelt `select (d ≠ d) (σ + 0) (max σ 0 + log1p (exp (−|d|)))`, `d = σ − 0`),
  `mean_b −(−½ · (ss_b / s + 98304 · (log 2π + log s)))`. It is written once here (`tail`), generic in the float
  instance, so that neither proof opens it.
-/
import Idealize.ShloMosaic.PureOps
import Idealize.ShloMosaic.PureOps.Ideal
import Idealize.ShloMosaic.Lib.ValueIdx

noncomputable section

namespace Cert.MaskedSumsq

open Idealize.ShloMosaic Idealize.ShloMosaic.ValueIdx

/-! ## The masked square of one element -/

/-- `(e · [y ≠ 0])²` on the extended reals. -/
def msq (e y : EReal) : EReal :=
  (e * (((Ideal.cmp .une y (Ideal.ofBits .f32 0x00000000#32)).toNat : ℝ) : EReal))
    * (e * (((Ideal.cmp .une y (Ideal.ofBits .f32 0x00000000#32)).toNat : ℝ) : EReal))

/-- A one-bit word zero-extended to 32 bits reads the same signed and unsigned. -/
theorem toInt_setWidth_one (b : BitVec 1) : (b.setWidth 32).toInt = (b.toNat : ℤ) := by
  revert b; decide

/-- The kernel's spelling of the masked square, at one index of a vector of any shape. -/
theorem kernel_msq {s : Shape} (e y : FVec Ideal s .f32) (h : 1 < 32) (i : s.Idx) :
    mulf (mulf e (sitofp .f32 (extui 32 (cmpf .one y (broadcast s (Scalar.ofBits .f32 0x00000000#32))) h)))
         (mulf e (sitofp .f32 (extui 32 (cmpf .one y (broadcast s (Scalar.ofBits .f32 0x00000000#32))) h))) i
      = msq (e i) (y i) := by
  show (e i * (((((Ideal.cmp .one (y i) (Ideal.ofBits .f32 0x00000000#32)).setWidth 32).toInt : ℤ) : ℝ) : EReal))
      * (e i * (((((Ideal.cmp .one (y i) (Ideal.ofBits .f32 0x00000000#32)).setWidth 32).toInt : ℤ) : ℝ) : EReal)) = _
  rw [toInt_setWidth_one]
  simp only [Int.cast_natCast]
  rfl

/-- The reference's spelling of the masked square, at one element. -/
theorem ref_msq (e y : EReal) :
    FloatOps.mulf (F := Ideal) (φ := .f32) e (FloatOps.uitofp .f32 (FloatOps.cmpf (F := Ideal) (φ := .f32) .une y (FloatOps.ofBits .f32 0x00000000#32)))
      * FloatOps.mulf (F := Ideal) (φ := .f32) e (FloatOps.uitofp .f32 (FloatOps.cmpf (F := Ideal) (φ := .f32) .une y (FloatOps.ofBits .f32 0x00000000#32)))
      = msq e y := rfl

/-! ## The scalar epilogue -/

abbrev R0 : Shape := ⟨0, ![]⟩
abbrev R1 : Shape := ⟨1, ![1]⟩
abbrev R256 : Shape := ⟨1, ![256]⟩

variable {F : FTy → Type} [FloatOps F]

/-- `softplus x = log (1 + eˣ)`, in the numerically stable spelling both programs print:
    with `d = x − 0`, `x + 0` where `d ≠ d`, else `max x 0 + log1p (exp (−|d|))`. -/
def softplus (x : FVec F R0 .f32) : FVec F R0 .f32 :=
  select (cmpf .une (subf x (constant (F := F) R0 .f32 0x00000000#32)) (subf x (constant (F := F) R0 .f32 0x00000000#32)))
    (addf x (constant (F := F) R0 .f32 0x00000000#32))
    (addf (maximumf x (constant (F := F) R0 .f32 0x00000000#32))
      (Host.log1p (F := F) (Host.exp (F := F) (Host.negf (F := F) (Host.absf (F := F) (subf x (constant (F := F) R0 .f32 0x00000000#32)))))))

/-- The epilogue: from the per-row sums `ss` and the parameter `σ`, with `s = softplus σ`, the mean over the 256 rows of
    `−(−½ · (ss_b / s + 98304 · (log 2π + log s)))`. -/
def tail (hc : R1.ShapeCasts R0) (hb : R0.BroadcastsInDim R256 (![] : Fin 0 → Fin R256.rank)) (hr : R256.ReducesTo [0] R0)
    (h0 : 0 < R0.numel) (ss : FVec F R256 .f32) (sg : FVec F R1 .f32) : FVec F R0 .f32 :=
  Host.divf (F := F)
    (Host.reduceAdd (F := F)
      (Host.negf (F := F)
        (mulf (broadcastInDim R256 ![] hb (constant (F := F) R0 .f32 0xBF000000#32))
          (addf (Host.divf (F := F) ss (broadcastInDim R256 ![] hb (softplus (shapeCast R0 sg hc))))
            (broadcastInDim R256 ![] hb
              (mulf (constant (F := F) R0 .f32 0x47C00000#32)
                (addf (id (Host.log (F := F) (constant (F := F) R0 .f32 0x40C90FDB#32)))
                  (Host.log (F := F) (softplus (shapeCast R0 sg hc)))))))))
      (constant (F := F) R0 .f32 0x00000000#32) hr h0)
    (constant (F := F) R0 .f32 0x43800000#32)

end Cert.MaskedSumsq

end
-- ==== Proof.Pieces.lean ====
/-
  What one grid point leaves in the accumulator and in the output block, as values.

  The body at a point loads the two [128, 24, 512] tiles `e`, `y` and the [128, 1] accumulator `acc`, and stores
  `acc + rowsum ((e · [y ≠ 0])²)` back into the accumulator (`k0_pay2 e y acc`); at the first point of a row of tiles it
  first stores zeros (`k0_pay1`) and reads them back as `acc`; at the last it also copies the new accumulator to the
  output block. So every case's pieces read back as ONE payload term of the loads. At the extended reals that payload,
  at row `r`, is `acc r + ∑ q n, msq (e (r, q, n)) (y (r, q, n))`.
-/
import proofs.«101981_j85323820302377_1_alg».proof.Proof.Gen.KernelIdeal.Frame
import proofs.«101981_j85323820302377_1_alg».proof.Proof.Sums
import proofs.«101981_j85323820302377_1_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MaskedSumsq

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of a row of tiles: the accumulator ends at the payload of the two tiles and what it held. -/
theorem scratch_B (c : Dev nD) (i : grid0.Coords) (a2 : Memref sig .tc .vmem S128x24x512 .f32) (h2 : a2.IsWhole)
    (a3 : Memref sig .tc .vmem S128x24x512 .f32) (h3 : a3.IsWhole) (a4 : Memref sig .tc .vmem S128x1 .f32) (h4 : a4.IsWhole)
    (a5 : Memref sig .tc .vmem S128x1 .f32) (h5 : a5.IsWhole) (hc0 : ¬cond0_0 i) (hc1 : ¬cond0_1 i)
    (x0 x1 : Vec F S128x24x512 .f32) (xs0 : Vec F S128x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S128x24x512) hz3, View.ld_unit_zero (S := S128x1) hz2]

/-- The first point of a row of tiles: the zeros just stored are what the payload reads as the accumulator. -/
theorem scratch_A (c : Dev nD) (i : grid0.Coords) (a2 : Memref sig .tc .vmem S128x24x512 .f32) (h2 : a2.IsWhole)
    (a3 : Memref sig .tc .vmem S128x24x512 .f32) (h3 : a3.IsWhole) (a4 : Memref sig .tc .vmem S128x1 .f32) (h4 : a4.IsWhole)
    (a5 : Memref sig .tc .vmem S128x1 .f32) (h5 : a5.IsWhole) (hc0 : cond0_0 i) (hc1 : ¬cond0_1 i)
    (x0 x1 : Vec F S128x24x512 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x1) hz2, View.readCov_unit_zero (S := S128x1) _ hz2]
  simp only [View.readAt_eq_ld, h2.read_unread, h3.read_unread, h5.read_unread, View.ld_unit_zero (S := S128x24x512) hz3, View.ld_unit_zero (S := S128x1) hz2]

/-- The last point of a row of tiles: the accumulator as at a middle point, -/
theorem scratch_C (c : Dev nD) (i : grid0.Coords) (a2 : Memref sig .tc .vmem S128x24x512 .f32) (h2 : a2.IsWhole)
    (a3 : Memref sig .tc .vmem S128x24x512 .f32) (h3 : a3.IsWhole) (a4 : Memref sig .tc .vmem S128x1 .f32) (h4 : a4.IsWhole)
    (a5 : Memref sig .tc .vmem S128x1 .f32) (h5 : a5.IsWhole) (hc0 : ¬cond0_0 i) (hc1 : cond0_1 i)
    (x0 x1 : Vec F S128x24x512 .f32) (xs0 : Vec F S128x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S128x24x512) hz3, View.ld_unit_zero (S := S128x1) hz2]

/-- and the output block is a copy of it. -/
theorem out_C (c : Dev nD) (i : grid0.Coords) (a2 : Memref sig .tc .vmem S128x24x512 .f32) (h2 : a2.IsWhole)
    (a3 : Memref sig .tc .vmem S128x24x512 .f32) (h3 : a3.IsWhole) (a4 : Memref sig .tc .vmem S128x1 .f32) (h4 : a4.IsWhole)
    (a5 : Memref sig .tc .vmem S128x1 .f32) (h5 : a5.IsWhole) (hc0 : ¬cond0_0 i) (hc1 : cond0_1 i)
    (x0 x1 : Vec F S128x24x512 .f32) (xs0 : Vec F S128x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2, View.readCov_unit_zero (S := S128x1) _ hz2]
  simp only [View.readAt_eq_ld, h2.read_unread, h3.read_unread, h5.read_unread, View.ld_unit_zero (S := S128x24x512) hz3, View.ld_unit_zero (S := S128x1) hz2]

/-! ## The payloads at the extended reals -/

/-- The reset stores zero in every row. -/
theorem pay1_apply (j : S128x1.Idx) : k0_pay1 (F := Ideal) j = 0 := by
  unfold k0_pay1
  rw [shapeCast_self]
  exact Ideal.ofBits_zero_f32

/-- The update at row `r`: what the accumulator held there plus the row's masked squares over the tile. -/
theorem pay2_apply (x0 x1 : Vec Ideal S128x24x512 .f32) (xs : Vec Ideal S128x1 .f32) (r : Fin 128) :
    k0_pay2 (F := Ideal) x0 x1 xs (ix2 r 0)
      = xs (ix2 r 0) + ∑ q : Fin 24, ∑ n : Fin 512, msq (x0 (ix3 r q n)) (x1 (ix3 r q n)) := by
  unfold k0_pay2
  rw [shapeCast_self]
  refine congrArg (xs (ix2 r 0) + ·) ?_
  refine (shapeCast_apply _ shapeCasts_S128_S128x1 (ix2 r 0) (ix1 r) ?_).trans ?_
  · rw [Shape.rowMajor_val_two]; rfl
  · refine (reduceAdd_rows reduces_S128x24x512_S128 _ r).trans ?_
    exact Finset.sum_congr rfl fun q _ => Finset.sum_congr rfl fun n _ => kernel_msq x0 x1 natLt_1_32 (ix3 r q n)

end Cert.KernelIdeal.Acc

end
-- ==== Proof.Blocks.lean ====
/-
  The tiles the two input windows hand the body, read at an index of the whole arrays.

  The grid is 2 × 8: point `t` is row-block `t / 8` (128 batch rows) and column tile `t % 8` (512 lanes). Window 0
  stages `eps` and window 1 stages `y`, both through the index map (t / 8, 0, t % 8) with block [128, 24, 512], so the
  tile's entry (r, q, n) is the array's entry (128 · (t / 8) + r, q, 512 · (t % 8) + n).
-/
import proofs.«101981_j85323820302377_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The two input arrays as the region finds them, and the tiles of them at a point, at their literal types. -/
abbrev epsArr (c : Dev nD) : Vec F S256x24x4096 .f32 := V m c main_arg0
abbrev yArr (c : Dev nD) : Vec F S256x24x4096 .f32 := V m c main_arg1
abbrev epsTile (c : Dev nD) (t : Fin cfg0.N) : Vec F S128x24x512 .f32 := iblk m c 0 t
abbrev yTile (c : Dev nD) (t : Fin cfg0.N) : Vec F S128x24x512 .f32 := iblk m c 1 t

/-- The grid has sixteen points. -/
theorem N16 : cfg0.N = 16 := N_0

/-- The index maps, decided once over the grid: point `t` is block row `t / 8`, column tile `t % 8`. -/
theorem idx_eps : ∀ t : Fin cfg0.N,
    win0_0.index t (0 : Fin 3) = t.val / 8 ∧ win0_0.index t (1 : Fin 3) = 0 ∧ win0_0.index t (2 : Fin 3) = t.val % 8 :=
  (by decide +kernel : ∀ t : Fin grid0.N, _)
theorem idx_y : ∀ t : Fin cfg0.N,
    win0_1.index t (0 : Fin 3) = t.val / 8 ∧ win0_1.index t (1 : Fin 3) = 0 ∧ win0_1.index t (2 : Fin 3) = t.val % 8 :=
  (by decide +kernel : ∀ t : Fin grid0.N, _)

/-- Where the tile's entry (r, q, n) at point `t` lies in the whole array. -/
def at3 (t : Fin cfg0.N) (r : Fin 128) (q : Fin 24) (n : Fin 512) : S256x24x4096.Idx :=
  ix3 (⟨128 * (t.val / 8) + r.val, by have := t.isLt; have := N16; have := r.isLt; omega⟩ : Fin 256) q
    (⟨512 * (t.val % 8) + n.val, by have := n.isLt; omega⟩ : Fin 4096)

theorem epsTile_apply (c : Dev nD) (t : Fin cfg0.N) (r : Fin 128) (q : Fin 24) (n : Fin 512) :
    epsTile m c t (ix3 r q n) = epsArr m c (at3 t r q n) := by
  obtain ⟨h0, h1, h2⟩ := idx_eps t
  unfold epsTile iblk
  rw [View.read_apply]
  show V m c main_arg0 _ = V m c main_arg0 _
  congr 1
  funext a
  apply Fin.ext
  match a with
  | ⟨0, _⟩ => show win0_0.index t 0 * 128 + 1 * r.val = 128 * (t.val / 8) + r.val; rw [h0]; omega
  | ⟨1, _⟩ => show win0_0.index t 1 * 24 + 1 * q.val = q.val; rw [h1]; omega
  | ⟨2, _⟩ => show win0_0.index t 2 * 512 + 1 * n.val = 512 * (t.val % 8) + n.val; rw [h2]; omega

theorem yTile_apply (c : Dev nD) (t : Fin cfg0.N) (r : Fin 128) (q : Fin 24) (n : Fin 512) :
    yTile m c t (ix3 r q n) = yArr m c (at3 t r q n) := by
  obtain ⟨h0, h1, h2⟩ := idx_y t
  unfold yTile iblk
  rw [View.read_apply]
  show V m c main_arg1 _ = V m c main_arg1 _
  congr 1
  funext a
  apply Fin.ext
  match a with
  | ⟨0, _⟩ => show win0_1.index t 0 * 128 + 1 * r.val = 128 * (t.val / 8) + r.val; rw [h0]; omega
  | ⟨1, _⟩ => show win0_1.index t 1 * 24 + 1 * q.val = q.val; rw [h1]; omega
  | ⟨2, _⟩ => show win0_1.index t 2 * 512 + 1 * n.val = 512 * (t.val % 8) + n.val; rw [h2]; omega

end Cert.KernelIdeal.Acc

end
-- ==== Proof.Running.lean ====
/-
  The accumulator across a row of tiles, at the extended reals.

  Write `part t r` for the sum of the masked squares of row `r` over the tile of point `t`. At the first point of a
  row of tiles (t ≡ 0 mod 8) the accumulator ends at `0 + part t`; at every other point at what the point before left
  plus `part t`; at the last (t ≡ 7 mod 8) the output block is a copy of it. So after point `8·i + j` the accumulator
  holds `∑ k ≤ j, part (8·i + k)`, by induction on `j`; and the block written back at `8·i + 7` holds the sum of the
  eight parts.
-/
import proofs.«101981_j85323820302377_1_alg».proof.Proof.Pieces
import proofs.«101981_j85323820302377_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MaskedSumsq

variable (m : (ℓ : Loc nD τ sig) → Buf (Elt Ideal) ℓ)

/-- Row `r`'s masked squares summed over the tile of point `t`. -/
def part (c : Dev nD) (t : Fin cfg0.N) (r : Fin 128) : EReal :=
  ∑ q : Fin 24, ∑ n : Fin 512, msq (epsTile m c t (ix3 r q n)) (yTile m c t (ix3 r q n))

/-- The accumulator after point `n`, at row `r`. -/
abbrev accAt (c : Dev nD) (n : ℕ) (hn : n < cfg0.N) (r : Fin 128) : EReal :=
  ((outsAt0 m c n hn).2 : Vec Ideal S128x1 .f32) (ix2 r 0)

/-- The first point of a row of tiles: the accumulator restarts from zero. -/
theorem acc_first (c : Dev nD) (t : Fin cfg0.N) (h0 : t.val % 8 = 0) (r : Fin 128) :
    accAt m c t.val t.isLt r = part m c t r := by
  have h1 : ¬t.val % 8 = 7 := by omega
  unfold accAt
  rw [outsAt0_A m c t h0 h1]
  dsimp only
  refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (epsTile m c t) (yTile m c t)) (ix2 r 0)).trans ?_
  refine (pay2_apply (epsTile m c t) (yTile m c t) (k0_pay1 (F := Ideal)) r).trans ?_
  rw [pay1_apply, zero_add]
  rfl

/-- Any later point: what the point before left, plus this tile's part. -/
theorem acc_next (c : Dev nD) (t : Fin cfg0.N) (h0 : ¬t.val % 8 = 0) (r : Fin 128) :
    accAt m c t.val t.isLt r
      = accAt m c (t.val - 1) (Nat.lt_of_le_of_lt (Nat.sub_le _ _) t.isLt) r + part m c t r := by
  unfold accAt
  by_cases h1 : t.val % 8 = 7
  · rw [outsAt0_C m c t h0 h1]
    dsimp only
    refine (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (epsTile m c t) (yTile m c t) (outsAt0 m c (t.val - 1) (Nat.lt_of_le_of_lt (Nat.sub_le _ _) t.isLt)).2) (ix2 r 0)).trans ?_
    exact pay2_apply (epsTile m c t) (yTile m c t) _ r
  · rw [outsAt0_B m c t h0 h1]
    dsimp only
    refine (congrFun (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (epsTile m c t) (yTile m c t) (outsAt0 m c (t.val - 1) (Nat.lt_of_le_of_lt (Nat.sub_le _ _) t.isLt)).2) (ix2 r 0)).trans ?_
    exact pay2_apply (epsTile m c t) (yTile m c t) _ r

/-- The last point of a row of tiles: the output block is the accumulator. -/
theorem out_last (c : Dev nD) (t : Fin cfg0.N) (h1 : t.val % 8 = 7) (r : Fin 128) :
    ((outsAt0 m c t.val t.isLt).1 : Vec Ideal S128x1 .f32) (ix2 r 0) = accAt m c t.val t.isLt r := by
  have h0 : ¬t.val % 8 = 0 := by omega
  unfold accAt
  rw [outsAt0_C m c t h0 h1]
  dsimp only
  rw [out_C (F := Ideal), scratch_C (F := Ideal)]

/-- Point number `k`, taken modulo the grid's sixteen. -/
def pt (k : ℕ) : Fin cfg0.N := ⟨k % 16, by rw [N16]; exact Nat.mod_lt _ (by decide)⟩

theorem pt_val (k : ℕ) (h : k < cfg0.N) : pt k = ⟨k, h⟩ :=
  Fin.ext (by have := N16; show k % 16 = k; omega)

/-- After point `8·i + j` the accumulator holds the parts of the tiles `8·i, …, 8·i + j`. -/
theorem acc_eq (c : Dev nD) (i : ℕ) (r : Fin 128) : ∀ (j : ℕ) (hj : j < 8) (h : 8 * i + j < cfg0.N),
    accAt m c (8 * i + j) h r = ∑ k ∈ Finset.range (j + 1), part m c (pt (8 * i + k)) r
  | 0, _, h => by
    rw [Finset.sum_range_one, pt_val (8 * i + 0) h]
    exact acc_first m c ⟨8 * i + 0, h⟩ (by show (8 * i + 0) % 8 = 0; omega) r
  | j + 1, hj, h => by
    rw [Finset.sum_range_succ, ← acc_eq c i r j (by omega) (by omega), pt_val (8 * i + (j + 1)) h]
    exact acc_next m c ⟨8 * i + (j + 1), h⟩ (by show ¬(8 * i + (j + 1)) % 8 = 0; omega) r

/-- The block written back at the last point of row-block `i` holds, at row `r`, the sum of its eight tiles' parts. -/
theorem out_eq (c : Dev nD) (i : ℕ) (h : 8 * i + 7 < cfg0.N) (r : Fin 128) :
    ((outsAt0 m c (8 * i + 7) h).1 : Vec Ideal S128x1 .f32) (ix2 r 0) = ∑ j : Fin 8, part m c (pt (8 * i + j.val)) r := by
  rw [← Finset.sum_range (fun k => part m c (pt (8 * i + k)) r), ← acc_eq m c i r 7 (by decide) h]
  exact out_last m c ⟨8 * i + 7, h⟩ (by show (8 * i + 7) % 8 = 7; omega) r

end Cert.KernelIdeal.Acc

end
-- ==== Proof.KernelValue.lean ====
/-
  The kernel's run, read at the extended reals.

  The output array [256, 1] is written back only at the last point of each row of tiles (t ≡ 7 mod 8), block `t / 8` of
  128 rows; the two blocks tile it. With the accumulator's closed form, entry (b, 0) ends at the sum, over the eight
  column tiles of block row `b / 128`, of row `b % 128`'s part (`sums`). The host lines after the region reshape it to
  [256] and run the scalar epilogue on it and `σ`.
-/
import proofs.«101981_j85323820302377_1_alg».proof.Proof.Running
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MaskedSumsq

variable (m : (ℓ : Loc nD τ sig) → Buf (Elt Ideal) ℓ) (ρ : Dev nD → PrngReg)

/-- What the output array ends holding: at (b, 0) the eight parts of row `b % 128` in block row `b / 128`. -/
def sums (c : Dev nD) : S256x1.Idx → EReal := fun i =>
  ∑ j : Fin 8, part m c (pt (8 * ((i 0).val / 128) + j.val)) (⟨(i 0).val % 128, Nat.mod_lt _ (by decide)⟩ : Fin 128)

/-- The output window's index map: block row `t / 8`. -/
theorem idx_out : ∀ t : Fin cfg0.N, win0_2.index t (0 : Fin 2) = t.val / 8 ∧ win0_2.index t (1 : Fin 2) = 0 :=
  (by decide +kernel : ∀ t : Fin grid0.N, _)

/-- A part depends on the point's number and the row's number only. -/
theorem part_congr (c : Dev nD) {k k' : ℕ} {r r' : Fin 128} (hk : k = k') (hr : r.val = r'.val) :
    part m c (pt k) r = part m c (pt k') r' := by
  subst hk
  obtain rfl : r = r' := Fin.ext hr
  rfl

/-- The block written back at the last point of a row of tiles, at row `r`. -/
theorem out_at (c : Dev nD) (t : Fin cfg0.N) (h7 : t.val % 8 = 7) (r : Fin 128) :
    ((outsAt0 m c t.val t.isLt).1 : Vec Ideal S128x1 .f32) (ix2 r 0)
      = ∑ j : Fin 8, part m c (pt (8 * (t.val / 8) + j.val)) r := by
  obtain ⟨n, hn⟩ := t
  obtain ⟨i, rfl⟩ : ∃ i, n = 8 * i + 7 := ⟨n / 8, by dsimp only at h7; omega⟩
  have e : (8 * i + 7) / 8 = i := by omega
  dsimp only
  rw [e]
  exact out_eq m c i hn r

/-- What a write-back writes is its block of `sums`. -/
theorem flushed_eq (c : Dev nD) (t : Fin cfg0.N) (hf : (cfg0.win 2).flush t = true) :
    (dats m 0 c).flushed 2 t = ((cfg0.win 2).blk t).view.read (Elt Ideal) (sums m c) := by
  have h7 : t.val % 8 = 7 := (flush0_2 t).mp hf
  obtain ⟨e0, e1⟩ := idx_out t
  show (cfg0.win 2).cut (grid0.coords t) ((dats m 0 c).after 2 t) = _
  rw [after0_2]
  funext j
  obtain ⟨r, z, rfl⟩ : ∃ (r : Fin 128) (z : Fin 1), j = ix2 r z := ⟨j 0, j 1, eq_ix2 j⟩
  obtain rfl : z = 0 := Subsingleton.elim _ _
  show ((outsAt0 m c t.val t.isLt).1 : Vec Ideal S128x1 .f32) (ix2 r 0) = sums m c (((cfg0.win 2).blk t).view.emb (ix2 r 0))
  rw [out_at m c t h7 r]
  unfold sums
  refine Finset.sum_congr rfl fun j _ => part_congr m c ?_ ?_
  · show 8 * (t.val / 8) + j.val = 8 * ((win0_2.index t 0 * 128 + 1 * r.val) / 128) + j.val
    rw [e0]; have := r.isLt; omega
  · show r.val = (win0_2.index t 0 * 128 + 1 * r.val) % 128
    rw [e0]; have := r.isLt; omega

/-- So the output array ends at `sums`: the two write-backs cover it. -/
theorem final_out (c : Dev nD) : (dats m 0 c).arrAt 2 cfg0.N = sums m c :=
  (dats m 0 c).arrAt_eq_of_cover 2 (sums m c) (flushed_eq m c) fun i => by
    have hi0 : (i 0).val < 256 := (i 0).isLt
    have hi1 : (i 1).val < 1 := (i 1).isLt
    have hN := N16
    obtain ⟨t, ht⟩ : ∃ t : Fin cfg0.N, t.val = 8 * ((i 0).val / 128) + 7 :=
      ⟨⟨8 * ((i 0).val / 128) + 7, by omega⟩, rfl⟩
    obtain ⟨e0, e1⟩ := idx_out t
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 128 ≤ (i 0).val ∧ (i 0).val < win0_2.index t 0 * 128 + 128
      rw [e0]; omega
    | ⟨1, _⟩ =>
      show win0_2.index t 1 * 1 ≤ (i 1).val ∧ (i 1).val < win0_2.index t 1 * 1 + 1
      rw [e1]; omega

-- the thirty-two host lines after the region are opened one by one
set_option maxHeartbeats 4000000 in
/-- The host lines after the region: @main's result is the epilogue of the output array, reshaped to [256], and `σ`. -/
theorem result_tail (c : Dev nD) :
    Pipeline.afterTail₀ cfgs (dats m) 0 (V0 m) [hostOps1, hostOps1_1, hostOps1_2] c main_v17
      = tail (F := Ideal) shapeCasts_S1_S_ bcast_S_S256 reducesTo_S256_S_d0 h_S_
          (shapeCast S256 ((dats m 0 c).arrAt 2 cfg0.N) shapeCasts_S256x1_S256) (m ((c : Thread nD τ).loc main_arg2)) := by
  show StableHlo.after (List.flatten [hostOps1, hostOps1_1, hostOps1_2])
      (Pipeline.withArrays spec0 c (V0 m c) fun w => (dats m 0 c).arrAt w cfg0.N) (Proc.devRef .tc main_v17) = _
  have e0 : Pipeline.withArrays spec0 c (V0 m c) (fun w => (dats m 0 c).arrAt w cfg0.N) (Proc.devRef .tc main_v0)
      = (dats m 0 c).arrAt 2 cfg0.N := Pipeline.withArrays_arr spec0 launch0.win.arr_inj c _ _ 2
  have e2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by decide)).trans (V_main_arg2 m c)
  rw [← e0, ← e2]
  generalize (Pipeline.withArrays spec0 c (V0 m c) fun w => (dats m 0 c).arrAt w cfg0.N) = W
  simp only [hostOps1, hostOps1_1, hostOps1_2, List.flatten_cons, List.flatten_nil, List.append_nil, List.cons_append,
    List.nil_append]
  after_results
  rfl

/-- The kernel's run, read: @main's result at the epilogue of `sums` (reshaped) and `σ`, the arguments unchanged. -/
theorem run : θ_run defs (onTc (τ := τ) (main (F := Ideal))) ⟨m, fun _ => 0, ρ⟩ fun r => ∀ c : Dev nD,
      r.2.mem ((c.tc : Thread nD τ).loc main_v17)
        = tail (F := Ideal) shapeCasts_S1_S_ bcast_S_S256 reducesTo_S256_S_d0 h_S_
            (shapeCast S256 (sums m c) shapeCasts_S256x1_S256) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans
        ((result_tail m c).trans (by rw [final_out])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.RefValue.lean ====
/-
  The reference, read: its result is the scalar epilogue (`tail`) of its per-row sums and `σ`, and the per-row sum of
  batch row `b` is `0 + ∑ k < 98304, msq (eps (b, k / 4096, k % 4096)) (y (b, k / 4096, k % 4096))`: the reshape to
  [256, 98304] reads entry (b, k) at the row-major position b · 98304 + k of [256, 24, 4096].
-/
import proofs.«101981_j85323820302377_1_alg».proof.Proof.Gen.ReferenceIdeal.Read
import proofs.«101981_j85323820302377_1_alg».proof.Proof.Spec
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MaskedSumsq

variable {F : FTy → Type} [FloatOps F]

/-- The reference's last stage is the epilogue of its per-row sums (the stage `%10`) and `σ`: the same operations in the
    same order. -/
theorem result_tail (x0 x1 : (⟨S256x24x4096, .f32⟩ : BufTy).Contents (Elt F)) (x2 : (⟨S1, .f32⟩ : BufTy).Contents (Elt F)) :
    val_main_v22 (F := F) x0 x1 x2
      = tail (F := F) shapeCasts_S1_S_ bcast_S_S256 reducesTo_S256_S_d0 h_S_ (val_main_v10 (F := F) x0 x1) x2 := rfl

/-- Entry `k` of row `b` of the flattened [256, 98304] array, in [256, 24, 4096]. -/
def flat3 (b : Fin 256) (k : Fin 98304) : S256x24x4096.Idx :=
  ix3 b (⟨k.val / 4096, by have := k.isLt; omega⟩ : Fin 24) (⟨k.val % 4096, by omega⟩ : Fin 4096)

theorem idx_flat (b : Fin 256) (k : Fin 98304) : idx_main_v4 (idx_main_v10 (ix1 b) k) = flat3 b k := by
  have hb := b.isLt
  have hk := k.isLt
  funext a
  apply Fin.ext
  match a with
  | ⟨0, _⟩ => show (b.val * 98304 + k.val) / 98304 = b.val; omega
  | ⟨1, _⟩ => show (b.val * 98304 + k.val) / 4096 % 24 = k.val / 4096; omega
  | ⟨2, _⟩ => show (b.val * 98304 + k.val) % 4096 = k.val % 4096; omega

/-- The per-row sum at batch row `b`. -/
theorem rowsum_apply (x0 x1 : (⟨S256x24x4096, .f32⟩ : BufTy).Contents (Elt Ideal)) (b : Fin 256) :
    val_main_v10 (F := Ideal) x0 x1 (ix1 b) = 0 + ∑ k : Fin 98304, msq (x0 (flat3 b k)) (x1 (flat3 b k)) := by
  rw [val_main_v10_apply, val_main_cst_1_apply]
  refine congr (congrArg _ Ideal.ofBits_zero_f32) (Finset.sum_congr rfl fun k _ => ?_)
  rw [val_main_v9_apply, val_main_v4_apply, val_main_v3_apply, val_main_v2_apply, val_main_v1_apply, val_main_v0_apply,
    val_main_cst_apply, idx_flat]
  exact ref_msq _ _

end Cert.ReferenceIdeal.RefValue

end
-- ==== Proof.Bridge.lean ====
/-
  The two per-row sums are one function of the arrays.

  The kernel's output at batch row `b` is `∑ j < 8, ∑ q < 24, ∑ n < 512, msq (eps (b, q, 512·j + n)) (y (b, q, 512·j + n))`:
  the tile of point `8·(b / 128) + j` holds row `b % 128` of block row `b / 128` at lanes `512·j …`. The reference's is
  `0 + ∑ k < 98304, msq (eps (b, k / 4096, k % 4096)) (y (…))`. Addition of extended reals is commutative and
  associative, so both are the sum over every (q, lane) pair once (`sum_tiles`); no finiteness is used.
-/
import proofs.«101981_j85323820302377_1_alg».proof.Proof.KernelValue
import proofs.«101981_j85323820302377_1_alg».proof.Proof.RefValue

noncomputable section

open Idealize.ShloMosaic Idealize.ShloMosaic.TcCoe Idealize.SL.Sem Idealize.ShloMosaic.ValueIdx

namespace Cert.KernelIdeal.Acc

open Cert.KernelIdeal Cert.KernelIdeal.Gen Cert.MaskedSumsq

variable (m : (ℓ : Loc nD τ sig) → Buf (Elt Ideal) ℓ)

/-- Lane `n` of column tile `j`. -/
def lane (j : Fin 8) (n : Fin 512) : Fin 4096 := ⟨512 * j.val + n.val, by have := j.isLt; have := n.isLt; omega⟩

/-- Where the tile of point `8·(b / 128) + j` keeps batch row `b`'s entry (q, n): at (b, q, 512·j + n). -/
theorem at3_row (b : Fin 256) (j : Fin 8) (q : Fin 24) (n : Fin 512) :
    at3 (pt (8 * (b.val / 128) + j.val)) (⟨b.val % 128, Nat.mod_lt _ (by decide)⟩ : Fin 128) q n = ix3 b q (lane j n) := by
  have hb := b.isLt
  have hj := j.isLt
  funext a
  apply Fin.ext
  match a with
  | ⟨0, _⟩ => show 128 * ((8 * (b.val / 128) + j.val) % 16 / 8) + b.val % 128 = b.val; omega
  | ⟨1, _⟩ => rfl
  | ⟨2, _⟩ => show 512 * ((8 * (b.val / 128) + j.val) % 16 % 8) + n.val = 512 * j.val + n.val; omega

/-- The kernel's output at batch row `b`, over the whole arrays. -/
theorem sums_apply (c : Dev nD) (b : Fin 256) :
    sums m c (ix2 b 0)
      = ∑ j : Fin 8, ∑ q : Fin 24, ∑ n : Fin 512,
          msq (epsArr m c (ix3 b q (lane j n))) (yArr m c (ix3 b q (lane j n))) := by
  unfold sums part
  refine Finset.sum_congr rfl fun j _ => Finset.sum_congr rfl fun q _ => Finset.sum_congr rfl fun n _ => ?_
  rw [epsTile_apply, yTile_apply]
  show msq (epsArr m c (at3 (pt (8 * (b.val / 128) + j.val)) ⟨b.val % 128, _⟩ q n))
      (yArr m c (at3 (pt (8 * (b.val / 128) + j.val)) ⟨b.val % 128, _⟩ q n)) = _
  rw [at3_row]

end Cert.KernelIdeal.Acc

namespace Cert.Bridge

open Cert.MaskedSumsq

/-- THE BRIDGE: the kernel's output array, reshaped to [256], is the reference's per-row sums of the same arrays. -/
theorem rowsums_eq (m : (ℓ : Loc Cert.KernelIdeal.nD Cert.KernelIdeal.τ Cert.KernelIdeal.sig) → Buf (Elt Ideal) ℓ)
    (c : Dev Cert.KernelIdeal.nD) :
    shapeCast Cert.KernelIdeal.S256 (Cert.KernelIdeal.Acc.sums m c) Cert.KernelIdeal.Facts₀.shapeCasts_S256x1_S256
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨b, rfl⟩ : ∃ b : Fin 256, i = ix1 b := ⟨i 0, eq_ix1 i⟩
  refine (shapeCast_apply _ _ (ix1 b) (ix2 b 0) ?_).trans ?_
  · rw [Shape.rowMajor_val_two]; rfl
  rw [Cert.KernelIdeal.Acc.sums_apply, Cert.ReferenceIdeal.RefValue.rowsum_apply, zero_add]
  exact sum_tiles
    (fun q n => msq (m ((c.tc : Thread Cert.KernelIdeal.nD Cert.KernelIdeal.τ).loc Cert.KernelIdeal.main_arg0) (ix3 b q n))
      (m ((c.tc : Thread Cert.KernelIdeal.nD Cert.KernelIdeal.τ).loc Cert.KernelIdeal.main_arg1) (ix3 b q n)))
    Cert.KernelIdeal.Acc.lane (fun _ _ => rfl) _ (fun _ => rfl) _ (fun _ => rfl)

end Cert.Bridge

end
-- ==== Proof.lean ====
/- The masked Gaussian negative log-likelihood: a kernel that sums `(eps · [y ≠ 0])²` over each batch row, tile by
   tile, on a 2 × 8 grid with an accumulator carried along each row of tiles, followed by a scalar epilogue on the host
   (softplus of σ, a quotient, logarithms, a mean), against the plain jnp reference that sums each flattened row at once
   and runs the same epilogue.

   Both idealized programs end at `tail ss σ` for the same `tail` (Proof/Spec.lean); the kernel's per-row sums are read
   off its frame run (Proof/Pieces.lean: what one point leaves; Proof/Blocks.lean: the tiles; Proof/Running.lean: the
   accumulator by induction along a row of tiles; Proof/KernelValue.lean: the output array and the host lines after the
   region), the reference's off its run (Proof/RefValue.lean), and the two are one sum over each row's (q, lane) pairs
   re-indexed (Proof/Sums.lean, Proof/Bridge.lean). The law joining the two sides is commutativity and associativity of
   addition on the extended reals, so the precondition is never opened. The idealization rewrote nothing. -/
import proofs.«101981_j85323820302377_1_alg».proof.Defs
import proofs.«101981_j85323820302377_1_alg».proof.Proof.Gen.Kernel
import proofs.«101981_j85323820302377_1_alg».proof.Proof.Gen.Kernel.Skeleton
import proofs.«101981_j85323820302377_1_alg».proof.Proof.Gen.Kernel.Launch
import proofs.«101981_j85323820302377_1_alg».proof.Proof.Gen.Kernel.Points
import proofs.«101981_j85323820302377_1_alg».proof.Proof.Gen.Kernel.Frame
import proofs.«101981_j85323820302377_1_alg».proof.Proof.Gen.KernelIdeal
import proofs.«101981_j85323820302377_1_alg».proof.Proof.Gen.KernelIdeal.Skeleton
import proofs.«101981_j85323820302377_1_alg».proof.Proof.Gen.KernelIdeal.Launch
import proofs.«101981_j85323820302377_1_alg».proof.Proof.Gen.KernelIdeal.Points
import proofs.«101981_j85323820302377_1_alg».proof.Proof.Gen.KernelIdeal.Frame
import proofs.«101981_j85323820302377_1_alg».proof.Proof.Gen.ReferenceIdeal
import proofs.«101981_j85323820302377_1_alg».proof.Proof.Gen.ReferenceIdeal.Run
import proofs.«101981_j85323820302377_1_alg».proof.Proof.Gen.ReferenceIdeal.Read
import proofs.«101981_j85323820302377_1_alg».proof.Proof.Gen.Pre_finite_inputs
import proofs.«101981_j85323820302377_1_alg».proof.Proof.Bridge
import Idealize.ShloMosaic.Adequacy
import Idealize.ShloMosaic.Init

noncomputable section

namespace Cert.Proof

open Idealize.ShloMosaic Idealize.SL.Sem

/-- The word-level kernel runs and keeps its arguments: the frame run over the same body. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the scalar epilogue of their per-row sums and `σ`; the per-row sums agree (`rowsums_eq`) on
    arguments that agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_tail, (hagree c).1, (hagree c).2.1,
    (hagree c).2.2, Cert.Bridge.rowsums_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
